-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S128x256 : Shape := ⟨2, ![128, 256]⟩
abbrev S256x128 : Shape := ⟨2, ![256, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S16x256x128x128 .f32) (main_arg1 : FVec F S128x256 .f32) (main_arg2 : FVec F S256x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S16x256x128x128 : Shape := ⟨4, ![16, 256, 128, 128]⟩
abbrev S128x256 : Shape := ⟨2, ![128, 256]⟩
abbrev S256x128 : Shape := ⟨2, ![256, 128]⟩
abbrev S16x1x256 : Shape := ⟨3, ![16, 1, 256]⟩
abbrev S1x256x128x128 : Shape := ⟨4, ![1, 256, 128, 128]⟩
abbrev S1x1x256 : Shape := ⟨3, ![1, 1, 256]⟩
abbrev S1x256x128 : Shape := ⟨3, ![1, 256, 128]⟩
abbrev S1x256 : Shape := ⟨2, ![1, 256]⟩
abbrev S16x256x1x1 : Shape := ⟨4, ![16, 256, 1, 1]⟩
abbrev S16x256 : Shape := ⟨2, ![16, 256]⟩
abbrev S16x128 : Shape := ⟨2, ![16, 128]⟩
abbrev S1x128x128x128 : Shape := ⟨4, ![1, 128, 128, 128]⟩
abbrev S1x128x1x1 : Shape := ⟨4, ![1, 128, 1, 1]⟩

abbrev nBuf : Space → Nat
  | .hbm => 6
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S256x128, .f32⟩
  | .hbm, ⟨3, _⟩ => ⟨S16x1x256, .f32⟩
  | .hbm, ⟨4, _⟩ => ⟨S16x256x1x1, .f32⟩
  | .hbm, ⟨5, _⟩ => ⟨S16x256x128x128, .f32⟩
  | .local _ .vmem, ⟨0, _⟩ => ⟨S1x256x128x128, .f32⟩
  | .local _ .vmem, ⟨1, _⟩ => ⟨S1x256x128x128, .f32⟩
  | .local _ .vmem, ⟨2, _⟩ => ⟨S1x1x256, .f32⟩
  | .local _ .vmem, ⟨3, _⟩ => ⟨S1x1x256, .f32⟩
  | .local _ .vmem, ⟨4, _⟩ => ⟨S16x1x256, .f32⟩
  | .local _ .vmem, ⟨5, _⟩ => ⟨S128x256, .f32⟩
  | .local _ .vmem, ⟨6, _⟩ => ⟨S256x128, .f32⟩
  | .local _ .vmem, ⟨7, _⟩ => ⟨S16x256x1x1, .f32⟩
  | .local _ .vmem, ⟨8, _⟩ => ⟨S1x128x128x128, .f32⟩
  | .local _ .vmem, ⟨9, _⟩ => ⟨S1x128x128x128, .f32⟩
  | .local _ .vmem, ⟨10, _⟩ => ⟨S1x128x1x1, .f32⟩
  | .local _ .vmem, ⟨11, _⟩ => ⟨S1x128x1x1, .f32⟩
  | .local _ .vmem, ⟨12, _⟩ => ⟨S1x128x128x128, .f32⟩
  | .local _ .vmem, ⟨13, _⟩ => ⟨S1x128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S16x1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![16, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x128x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x256x128x128_S1x256x128x128_0_0_0_0 : ∀ a, (![0, 0, 0, 0] : Fin 4 → Nat) a + S1x256x128x128.size a ≤ S1x256x128x128.size a
  h_S1x256x128x128 : 0 < S1x256x128x128.numel
  reduces_S1x256x128x128_S1x256x128 : S1x256x128x128.Reduces [3] S1x256x128
  reduces_S1x256x128_S1x256 : S1x256x128.Reduces [2] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S16x1x256_S16x1x256_0_0_0 : ∀ a, (![0, 0, 0] : Fin 3 → Nat) a + S16x1x256.size a ≤ S16x1x256.size a
  h_S16x1x256 : 0 < S16x1x256.numel
  shapeCasts_S16x1x256_S16x256 : S16x1x256.ShapeCasts S16x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  transposes_S128x256_p1_0_S256x128 : S128x256.Transposes [1, 0] S256x128
  transposes_S256x128_p1_0_S128x256 : S256x128.Transposes [1, 0] S128x256
  inb_S16x256x1x1_S16x256x1x1_0_0_0_0 : ∀ a, (![0, 0, 0, 0] : Fin 4 → Nat) a + S16x256x1x1.size a ≤ S16x256x1x1.size a
  h_S16x256x1x1 : 0 < S16x256x1x1.numel
  shapeCasts_S16x256x1x1_S16x256 : S16x256x1x1.ShapeCasts S16x256
  shapeCasts_S16x256_S16x256x1x1 : S16x256.ShapeCasts S16x256x1x1
  inb_S1x128x128x128_S1x128x128x128_0_0_0_0 : ∀ a, (![0, 0, 0, 0] : Fin 4 → Nat) a + S1x128x128x128.size a ≤ S1x128x128x128.size a
  h_S1x128x128x128 : 0 < S1x128x128x128.numel
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  broadcasts_S1x128x1x1_S1x128x128x128 : S1x128x1x1.Broadcasts S1x128x128x128
  dot_S16x256_S256x128_S16x128_1_0_0_1_n_n_wf : DotDims.WF S16x256 S256x128 S16x128 [1] [0] [0] [1] [] []
  dot_S16x128_S128x256_S16x256_1_0_0_1_n_n_wf : DotDims.WF S16x128 S128x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128x128.size a ≤ S16x256x128x128.size a
  hwx0_0 : ∀ i : grid0.Coords, EltTy.bits .f32 = 32 ∨ (Rect.block (s := S16x256x128x128) S1x256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S16x1x256.size a
  hwx0_1 : ∀ i : grid0.Coords, EltTy.bits .f32 = 32 ∨ (Rect.block (s := S16x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x1x256.size a ≤ S16x1x256.size a
  hwx1_0 : ∀ i : grid1.Coords, EltTy.bits .f32 = 32 ∨ (Rect.block (s := S16x1x256) S16x1x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256x1x1.size a ≤ S16x256x1x1.size a
  hwx1_3 : ∀ i : grid1.Coords, EltTy.bits .f32 = 32 ∨ (Rect.block (s := S16x256x1x1) S16x256x1x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x128x128.size a ≤ S16x256x128x128.size a
  hwx2_0 : ∀ i : grid2.Coords, EltTy.bits .f32 = 32 ∨ (Rect.block (s := S16x256x128x128) S1x128x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1x1.size a ≤ S16x256x1x1.size a
  hwx2_1 : ∀ i : grid2.Coords, EltTy.bits .f32 = 32 ∨ (Rect.block (s := S16x256x1x1) S1x128x1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128x128x128.size a ≤ S16x256x128x128.size a
  hwx2_2 : ∀ i : grid2.Coords, EltTy.bits .f32 = 32 ∨ (Rect.block (s := S16x256x128x128) S1x128x128x128.size (cc2_transform_2 i) (hinb2_2 i)).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf

abbrev win0_0 : Pipeline.Window sig grid0 :=
  Pipeline.Window.ofSpec (Memref.whole main_arg0) S1x256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x1x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16x256x1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x128x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128x1x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x128x128x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16x256x128x128 : Shape := ⟨4, ![16, 256, 128, 128]⟩
abbrev S128x256 : Shape := ⟨2, ![128, 256]⟩
abbrev S256x128 : Shape := ⟨2, ![256, 128]⟩
abbrev S_ : Shape := ⟨0, ![]⟩
abbrev S16x256 : Shape := ⟨2, ![16, 256]⟩
abbrev S16x128 : Shape := ⟨2, ![16, 128]⟩
abbrev S16x256x1x1 : Shape := ⟨4, ![16, 256, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S128x256, .f32⟩
  | .hbm, ⟨2, _⟩ => ⟨S256x128, .f32⟩
  | .hbm, ⟨3, _⟩ => ⟨S_, .f32⟩
  | .hbm, ⟨4, _⟩ => ⟨S16x256, .f32⟩
  | .hbm, ⟨5, _⟩ => ⟨S_, .f32⟩
  | .hbm, ⟨6, _⟩ => ⟨S16x256, .f32⟩
  | .hbm, ⟨7, _⟩ => ⟨S16x256, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S_, .f32⟩
  | .hbm, ⟨19, _⟩ => ⟨S16x256, .f32⟩
  | .hbm, ⟨20, _⟩ => ⟨S16x256, .f32⟩
  | .hbm, ⟨21, _⟩ => ⟨S16x256x1x1, .f32⟩
  | .hbm, ⟨22, _⟩ => ⟨S16x256x128x128, .f32⟩
  | .hbm, ⟨23, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S_S16x128 : S_.BroadcastsInDim S16x128 (![] : Fin 0 → Fin S16x128.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S128x256_S16x128_1_1_0_0_n_n_wf : DotDims.WF S16x256 S128x256 S16x128 [1] [1] [0] [0] [] []
  dot_S16x128_S256x128_S16x256_1_1_0_0_n_n_wf : DotDims.WF S16x128 S256x128 S16x256 [1] [1] [0] [0] [] []

variable [Facts₀]

def dot_S16x256_S128x256_S16x128_1_1_0_0_n_n : DotDims S16x256 S128x256 S16x128 where
  lhsContracting := [1]
  rhsContracting := [1]
  lhsNonContracting := [0]
  rhsNonContracting := [0]
  lhsBatch := []
  rhsBatch := []
  wf := dot_S16x256_S128x256_S16x128_1_1_0_0_n_n_wf
def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf

class Facts : Prop extends Facts₀ where

variable [Facts]
-- ==== Proof.Spec.lean ====
/-
  Squeeze-and-excite gating as one function of the three argument arrays, on the extended reals.

  For an input `u[b, c, h, w]` (16 × 256 × 128 × 128), a squeeze matrix `wsq[o, c]` (128 × 256) and an excite
  matrix `wex[c, o]` (256 × 128):

    mean b c        = (Σ_h Σ_w u[b, c, h, w]) · 2⁻¹⁴          the channel mean over the 128 · 128 = 2¹⁴ positions
    squeezed b o    = max (Σ_c mean b c · wsq[o, c]) 0
    logit b c       = Σ_o squeezed b o · wex[c, o]
    gate b c        = 1 / (1 + e^(−logit b c))
    result[b,c,h,w] = u[b, c, h, w] · gate b c.

  The means are laid out as a 16 × 1 × 256 array and the gates as a 16 × 256 × 1 × 1 array, so each of the three
  stages is a whole-array function of the arrays before it. Two laws join the two ways the mean is spelt: a sum
  over the index set "coordinates 0 and 1 fixed" of a rank-4 array is the iterated sum over coordinates 2 and 3
  (addition on the extended reals is commutative and associative, so no finiteness is needed), and a quotient by
  16384 is the product with 2⁻¹⁴, both being exact binary values, at the infinities too.
-/
import Idealize.ShloMosaic.PureOps.Ideal
import Idealize.ShloMosaic.PureOps.Ideal.Laws
import Idealize.ShloMosaic.Lib.ValueIdx

noncomputable section

open scoped BigOperators

namespace Cert.SqueezeExcite

open Idealize.ShloMosaic Idealize.ShloMosaic.ValueIdx

/-- The input and the result: batch × channel × height × width. -/
abbrev SU : Shape := ⟨4, ![16, 256, 128, 128]⟩
/-- Batch × channel. -/
abbrev SP : Shape := ⟨2, ![16, 256]⟩
/-- The channel means, with a unit middle axis. -/
abbrev SZ : Shape := ⟨3, ![16, 1, 256]⟩
/-- The gates, with two unit trailing axes. -/
abbrev SG : Shape := ⟨4, ![16, 256, 1, 1]⟩
/-- The squeeze matrix: hidden × channel. -/
abbrev SQ : Shape := ⟨2, ![128, 256]⟩
/-- The excite matrix: channel × hidden. -/
abbrev SE : Shape := ⟨2, ![256, 128]⟩

/-! ## The two constants of the mean -/

/-- The pattern `0x46800000` is the real 2¹⁴. -/
theorem ofBits_16384 : Ideal.ofBits .f32 0x46800000#32 = ((16384 : ℝ) : EReal) := by
  simp [Ideal.ofBits, Ideal.ieee, -EReal.coe_mul]; norm_num

/-- The pattern `0x38800000` is the real 2⁻¹⁴. -/
theorem ofBits_inv_16384 : Ideal.ofBits .f32 0x38800000#32 = (((1 : ℝ) / 16384 : ℝ) : EReal) := by
  simp [Ideal.ofBits, Ideal.ieee, -EReal.coe_mul]; norm_num

/-- Dividing by 2¹⁴ is multiplying by 2⁻¹⁴, on every extended real. -/
theorem div_16384 (x : EReal) :
    Ideal.div x (Ideal.ofBits .f32 0x46800000#32) = x * Ideal.ofBits .f32 0x38800000#32 := by
  rw [ofBits_16384, ofBits_inv_16384]
  exact Ideal.div_coe (by norm_num) x

/-! ## The three stages -/

/-- The mean of channel `c` of batch member `b`: the sum over the 128 × 128 positions times 2⁻¹⁴. -/
def mean (u : SU.Idx → EReal) (b : Fin 16) (c : Fin 256) : EReal :=
  (∑ h : Fin 128, ∑ w : Fin 128, u (ix4 b c h w)) * Ideal.ofBits .f32 0x38800000#32

/-- The means as a 16 × 1 × 256 array. -/
def meanArr (u : SU.Idx → EReal) : SZ.Idx → EReal :=
  fun j => mean u ⟨(j 0).val, (j 0).isLt⟩ ⟨(j 2).val, (j 2).isLt⟩

/-- The hidden activations: the means against the rows of the squeeze matrix, clamped below at zero. -/
def squeezed (z : SZ.Idx → EReal) (wsq : SQ.Idx → EReal) (b : Fin 16) (o : Fin 128) : EReal :=
  max (∑ c : Fin 256, z (ix3 b 0 c) * wsq (ix2 o c)) (Ideal.ofBits .f32 0x00000000#32)

/-- The gate's argument: the hidden activations against the rows of the excite matrix. -/
def logit (z : SZ.Idx → EReal) (wsq : SQ.Idx → EReal) (wex : SE.Idx → EReal) (b : Fin 16) (c : Fin 256) : EReal :=
  ∑ o : Fin 128, squeezed z wsq b o * wex (ix2 c o)

/-- The gates as a 16 × 256 × 1 × 1 array: the logistic function of the logits. -/
def gateArr (z : SZ.Idx → EReal) (wsq : SQ.Idx → EReal) (wex : SE.Idx → EReal) : SG.Idx → EReal :=
  fun j => Ideal.logistic (logit z wsq wex ⟨(j 0).val, (j 0).isLt⟩ ⟨(j 1).val, (j 1).isLt⟩)

/-- Every position of a channel multiplied by that channel's gate. -/
def scaleArr (u : SU.Idx → EReal) (g : SG.Idx → EReal) : SU.Idx → EReal :=
  fun i => u i * g (ix4 ⟨(i 0).val, (i 0).isLt⟩ ⟨(i 1).val, (i 1).isLt⟩ 0 0)

/-- The whole computation. -/
def result (u : SU.Idx → EReal) (wsq : SQ.Idx → EReal) (wex : SE.Idx → EReal) : SU.Idx → EReal :=
  scaleArr u (gateArr (meanArr u) wsq wex)

/-! ## A sum over two trailing axes at once -/

/-- The indices of the rank-4 array whose first two coordinates are those of `j` are the pairs (h, w): the sum
    over that set is the iterated sum. -/
theorem sum_trailing_pair (h' : SU.ReducesTo [2, 3] SP) (x : SU.Idx → EReal) (j : SP.Idx) :
    ∑ i ∈ Finset.univ.filter (fun i => h'.drop i = j), x i
      = ∑ h : Fin 128, ∑ w : Fin 128, x (ix4 ⟨(j 0).val, (j 0).isLt⟩ ⟨(j 1).val, (j 1).isLt⟩ h w) := by
  have d0 : ∀ i : SU.Idx, (h'.drop i 0 : Nat) = i 0 := fun i => h'.drop_apply_val_of_eq i 0 0
  have d1 : ∀ i : SU.Idx, (h'.drop i 1 : Nat) = i 1 := fun i => h'.drop_apply_val_of_eq i 1 1
  rw [← Finset.sum_product']
  refine Finset.sum_bij' (fun i _ => ((⟨(i 2).val, (i 2).isLt⟩ : Fin 128), (⟨(i 3).val, (i 3).isLt⟩ : Fin 128)))
    (fun p _ => ix4 ⟨(j 0).val, (j 0).isLt⟩ ⟨(j 1).val, (j 1).isLt⟩ p.1 p.2) ?_ ?_ ?_ ?_ ?_
  · intro i _; exact Finset.mem_product.mpr ⟨Finset.mem_univ _, Finset.mem_univ _⟩
  · intro p _
    refine Finset.mem_filter.mpr ⟨Finset.mem_univ _, funext fun b => Fin.ext ?_⟩
    match b with
    | ⟨0, _⟩ => exact (d0 _).trans rfl
    | ⟨1, _⟩ => exact (d1 _).trans rfl
  · intro i hi
    have hj : h'.drop i = j := (Finset.mem_filter.mp hi).2
    have e0 : (i 0).val = (j 0).val := (d0 i).symm.trans (congrArg (fun k : SP.Idx => (k 0).val) hj)
    have e1 : (i 1).val = (j 1).val := (d1 i).symm.trans (congrArg (fun k : SP.Idx => (k 1).val) hj)
    funext a; apply Fin.ext
    match a with
    | ⟨0, _⟩ => exact e0.symm
    | ⟨1, _⟩ => exact e1.symm
    | ⟨2, _⟩ => rfl
    | ⟨3, _⟩ => rfl
  · intro p _; rfl
  · intro i hi
    have hj : h'.drop i = j := (Finset.mem_filter.mp hi).2
    have e0 : (i 0).val = (j 0).val := (d0 i).symm.trans (congrArg (fun k : SP.Idx => (k 0).val) hj)
    have e1 : (i 1).val = (j 1).val := (d1 i).symm.trans (congrArg (fun k : SP.Idx => (k 1).val) hj)
    refine congrArg x (funext fun a => Fin.ext ?_)
    match a with
    | ⟨0, _⟩ => exact e0
    | ⟨1, _⟩ => exact e1
    | ⟨2, _⟩ => rfl
    | ⟨3, _⟩ => rfl

/-- The mean as a host program spells it — zero plus the sum over the two trailing axes, divided by 2¹⁴ — is
    `mean`. -/
theorem mean_of_quotient (h' : SU.ReducesTo [2, 3] SP) (u : SU.Idx → EReal) (j : SP.Idx) :
    Ideal.div (Ideal.hostReduceAdd h' u (Ideal.ofBits .f32 0x00000000#32) j) (Ideal.ofBits .f32 0x46800000#32)
      = mean u ⟨(j 0).val, (j 0).isLt⟩ ⟨(j 1).val, (j 1).isLt⟩ := by
  unfold Ideal.hostReduceAdd mean
  rw [div_16384, Ideal.ofBits_zero_f32, zero_add, sum_trailing_pair]

end Cert.SqueezeExcite

end
-- ==== Proof.Pool.lean ====
/-
  The first region: the channel means.

  Grid point `t` (one per batch member, 16 of them) reads the whole slab `u[t, ·, ·, ·]` and writes row `t` of the
  16 × 1 × 256 array of means: for each channel it adds the 128 entries of every row, then the 128 row sums, and
  multiplies by 2⁻¹⁴. Here: the body's stored value at channel `c` is that iterated sum of the loaded slab; the slab
  at point `t` is the input array at first coordinate `t`; so what point `t` writes back is row `t` of `meanArr` of
  the input; the sixteen rows cover the array, which therefore ends as `meanArr` of the input.
-/
import proofs.«168647_j4123168604913_1_alg».proof.Proof.Gen.KernelIdeal.Frame
import proofs.«168647_j4123168604913_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pool

open Cert.KernelIdeal Cert.KernelIdeal.Gen Cert.SqueezeExcite
open Idealize.ShloMosaic Idealize.ShloMosaic.TcCoe Idealize.ShloMosaic.ValueIdx Idealize.SL.Sem
open Idealize.ShloMosaic.Pipeline (Dat)

/-- The stored value at channel `c`: the slab's entries of that channel added row by row, the row sums added, the
    total scaled by 2⁻¹⁴. -/
theorem payload_apply (x : Vec Ideal S1x256x128x128 .f32) (c : Fin 256) :
    k0_pay1 (F := Ideal) x (ix3 0 0 c)
      = (∑ h : Fin 128, ∑ w : Fin 128, x (ix4 0 c h w)) * Ideal.ofBits .f32 0x38800000#32 := by
  unfold k0_pay1
  refine (shapeCast_apply _ _ (ix3 0 0 c) (ix2 0 c) ?_).trans ?_
  · rw [Shape.rowMajor_val_two, Shape.rowMajor_val_three]; rfl
  dsimp only
  rw [mulf_apply, broadcast_apply]
  refine congrArg (fun t => t * Ideal.ofBits .f32 0x38800000#32) ?_
  refine (Ideal.multiReduction_add_single _ _ reduces_S1x256x128_S1x256 _ _ (ix2 0 c)).trans ?_
  refine Finset.sum_congr rfl fun h _ => ?_
  refine (Ideal.multiReduction_add_single x _ reduces_S1x256x128x128_S1x256x128 _ _ _).trans ?_
  refine Finset.sum_congr rfl fun w _ => congrArg x ?_
  funext a; apply Fin.ext
  match a with
  | ⟨0, _⟩ => rfl
  | ⟨1, _⟩ => rfl
  | ⟨2, _⟩ => rfl
  | ⟨3, _⟩ => rfl

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The block indices at point `t`: the slab and the row both sit at first coordinate `t`, at zero elsewhere. -/
theorem block_indices : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The slab loaded at point `t`, at (0, c, h, w), is the input at (t, c, h, w). -/
theorem slab_apply (c : Dev nD) (t : Fin cfg0.N) (ch : Fin 256) (h w : Fin 128) (k : S16x256x128x128.Idx)
    (k0 : (k 0).val = t.val) (k1 : (k 1).val = ch.val) (k2 : (k 2).val = h.val) (k3 : (k 3).val = w.val) :
    (iblk0 V c 0 t : Vec Ideal S1x256x128x128 .f32) (ix4 0 ch h w)
      = (V c main_arg0 : S16x256x128x128.Idx → Elt Ideal .f32) k := by
  obtain ⟨e0, e1, e2, e3, -, -, -⟩ := block_indices t
  unfold iblk0
  rw [View.read_apply]
  show V c main_arg0 _ = V c main_arg0 _
  congr 1
  funext a
  apply Fin.ext
  match a with
  | ⟨0, _⟩ => show win0_0.index t (0 : Fin 4) * 1 + 1 * 0 = (k 0).val; rw [e0, k0]; omega
  | ⟨1, _⟩ => show win0_0.index t (1 : Fin 4) * 256 + 1 * ch.val = (k 1).val; rw [e1, k1]; omega
  | ⟨2, _⟩ => show win0_0.index t (2 : Fin 4) * 128 + 1 * h.val = (k 2).val; rw [e2, k2]; omega
  | ⟨3, _⟩ => show win0_0.index t (3 : Fin 4) * 128 + 1 * w.val = (k 3).val; rw [e3, k3]; omega

/-- What point `t` writes back is row `t` of the means of the input as the region finds it. -/
theorem flushed_eq (c : Dev nD) (t : Fin cfg0.N) :
    (dat0 V c).flushed 1 t = ((cfg0.win 1).blk t).view.read (Elt Ideal) (meanArr (V c main_arg0)) := by
  show (cfg0.win 1).cut (grid0.coords t) ((dat0 V c).after 1 t) = _
  rw [after0_1]
  unfold out0_1
  rw [View.canon_unit_zero zeros3]
  simp only [View.ld_unit_zero (S := S1x256x128x128) zeros4]
  obtain ⟨-, -, -, -, f0, f1, f2⟩ := block_indices t
  funext j
  obtain ⟨p, q, r, rfl⟩ : ∃ (p : Fin 1) (q : Fin 1) (r : Fin 256), j = ix3 p q r := ⟨j 0, j 1, j 2, eq_ix3 j⟩
  obtain rfl : p = 0 := Fin.eq_zero p
  obtain rfl : q = 0 := Fin.eq_zero q
  show k0_pay1 (F := Ideal) (iblk0 V c 0 t) (ix3 0 0 r) = meanArr (V c main_arg0) (((cfg0.win 1).blk t).view.emb (ix3 0 0 r))
  refine (payload_apply _ r).trans ?_
  unfold meanArr mean
  refine congrArg (fun s => s * Ideal.ofBits .f32 0x38800000#32) ?_
  refine Finset.sum_congr rfl fun h _ => Finset.sum_congr rfl fun w _ => ?_
  refine slab_apply V c t r h w _ ?_ ?_ rfl rfl
  · show win0_1.index t (0 : Fin 3) * 1 + 1 * 0 = t.val
    rw [f0]; omega
  · show win0_1.index t (2 : Fin 3) * 256 + 1 * r.val = r.val
    rw [f2]; omega

/-- An index of the array of means is in point `t`'s block iff each coordinate is in the block's range. -/
theorem mem_blk (t : Fin cfg0.N) (i : S16x1x256.Idx) :
    i ∈ ((cfg0.win 1).blk t).view.set ↔ ∀ a : Fin 3, win0_1.index t a * S1x1x256.size a ≤ (i a).val
      ∧ (i a).val < win0_1.index t a * S1x1x256.size a + S1x1x256.size a := by
  show i ∈ ((View.whole main_v0).slice (win0_1.rect t)).set ↔ _
  rw [View.set_slice_whole, Rect.mem_set_unit]
  exact Iff.rfl

/-- Row `b` of the array is written back by point `b`. -/
theorem cover (i : S16x1x256.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 256 := (i 2).isLt
  have ht : (i 0).val < cfg0.N := by show (i 0).val < grid0.N; rw [N_0]; exact h0
  obtain ⟨-, -, -, -, f0, f1, f2⟩ := block_indices ⟨(i 0).val, ht⟩
  refine ⟨⟨(i 0).val, ht⟩, flush0_1 _, ?_⟩
  rw [mem_blk]
  intro a
  match a with
  | ⟨0, _⟩ =>
    show win0_1.index ⟨(i 0).val, ht⟩ (0 : Fin 3) * 1 ≤ (i 0).val ∧ (i 0).val < win0_1.index ⟨(i 0).val, ht⟩ (0 : Fin 3) * 1 + 1
    rw [f0]; show (i 0).val * 1 ≤ (i 0).val ∧ (i 0).val < (i 0).val * 1 + 1; omega
  | ⟨1, _⟩ =>
    show win0_1.index ⟨(i 0).val, ht⟩ (1 : Fin 3) * 1 ≤ (i 1).val ∧ (i 1).val < win0_1.index ⟨(i 0).val, ht⟩ (1 : Fin 3) * 1 + 1
    rw [f1]; omega
  | ⟨2, _⟩ =>
    show win0_1.index ⟨(i 0).val, ht⟩ (2 : Fin 3) * 256 ≤ (i 2).val ∧ (i 2).val < win0_1.index ⟨(i 0).val, ht⟩ (2 : Fin 3) * 256 + 256
    rw [f2]; omega

/-- The array of means after the region: `meanArr` of the input as the region finds it. -/
theorem final (c : Dev nD) : (dat0 V c).arrAt 1 cfg0.N = meanArr (V c main_arg0) :=
  (dat0 V c).arrAt_eq_of_cover 1 (meanArr (V c main_arg0)) (fun t _ => flushed_eq V c t) cover

end Cert.KernelIdeal.Pool

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Gate.lean ====
/-
  The second region: the gates.

  One grid point. It reads the whole 16 × 1 × 256 array of means and both weight matrices, and writes the whole
  16 × 256 × 1 × 1 array of gates: the means against the rows of the squeeze matrix (a product with the matrix
  transposed, into a zero accumulator), the maximum with zero, that against the rows of the excite matrix (again a
  product with the transpose), and the logistic function. The narrowing of the operands to a shorter float format
  before each product is the identity on the extended reals. Here: the stored value at (b, c) is the logistic
  function of `logit` of the three loaded arrays; each loaded array is the whole array the region finds; the one
  block written back covers the array of gates, which ends as `gateArr` of the means and the two matrices.
-/
import proofs.«168647_j4123168604913_1_alg».proof.Proof.Gen.KernelIdeal.Frame
import proofs.«168647_j4123168604913_1_alg».proof.Proof.Spec
import proofs.«168647_j4123168604913_1_alg».proof.Proof.LibPlainProduct
import Idealize.ShloMosaic.Lib.Pipeline.Value
import Idealize.ShloMosaic.Lib.ValueIdx
import Idealize.ShloMosaic.PureOps.Ideal.Laws

noncomputable section

open scoped BigOperators

namespace Cert.KernelIdeal.Gate

open Cert.KernelIdeal Cert.KernelIdeal.Gen Cert.SqueezeExcite
open Idealize.ShloMosaic Idealize.ShloMosaic.TcCoe Idealize.ShloMosaic.ValueIdx Idealize.SL.Sem
open Idealize.ShloMosaic.Pipeline (Dat)

/-- Dropping the unit middle axis of the means: entry (b, c) is entry (b, 0, c). -/
theorem means_read (z : Vec Ideal S16x1x256 .f32) (b : Fin 16) (c : Fin 256) :
    shapeCast S16x256 z shapeCasts_S16x1x256_S16x256 (ix2 b c) = z (ix3 b 0 c) := by
  refine shapeCast_apply z _ (ix2 b c) (ix3 b 0 c) ?_
  rw [Shape.rowMajor_val_two, Shape.rowMajor_val_three]
  show (b.val * 1 + 0) * 256 + c.val = b.val * 256 + c.val
  omega

/-- The squeeze matrix transposed, at (c, o), is the matrix at (o, c). -/
theorem squeeze_transposed (w : FVec Ideal S128x256 .bf16) (c : Fin 256) (o : Fin 128) :
    transpose S256x128 [1, 0] w transposes_S128x256_p1_0_S256x128 (ix2 c o) = w (ix2 o c) := by
  refine transpose_apply _ w _ (ix2 c o) (ix2 o c) (fun a => ?_)
  match a with
  | ⟨0, _⟩ => rfl
  | ⟨1, _⟩ => rfl

/-- The excite matrix transposed, at (o, c), is the matrix at (c, o). -/
theorem excite_transposed (w : FVec Ideal S256x128 .bf16) (o : Fin 128) (c : Fin 256) :
    transpose S128x256 [1, 0] w transposes_S256x128_p1_0_S128x256 (ix2 o c) = w (ix2 c o) := by
  refine transpose_apply _ w _ (ix2 o c) (ix2 c o) (fun a => ?_)
  match a with
  | ⟨0, _⟩ => rfl
  | ⟨1, _⟩ => rfl

/-- The stored value at (b, c): the logistic function of the logit of the loaded means and matrices. -/
theorem payload_apply (z : Vec Ideal S16x1x256 .f32) (wsq : Vec Ideal S128x256 .f32) (wex : Vec Ideal S256x128 .f32)
    (b : Fin 16) (c : Fin 256) :
    k1_pay1 (F := Ideal) z wsq wex (ix4 b c 0 0) = Ideal.logistic (logit z wsq wex b c) := by
  unfold k1_pay1
  refine (shapeCast_apply _ _ (ix4 b c 0 0) (ix2 b c) ?_).trans ?_
  · rw [Shape.rowMajor_val_two, Shape.rowMajor_val_four]
    show b.val * 256 + c.val = ((b.val * 256 + c.val) * 1 + 0) * 1 + 0
    omega
  dsimp only
  show Ideal.logistic _ = _
  refine congrArg Ideal.logistic ?_
  unfold logit
  refine (Cert.LibPlainProduct.matmul_zero_plain_apply (M := 16) (K := 128) (N := 256) _ _ none b c).trans ?_
  refine Finset.sum_congr rfl fun o _ => ?_
  refine congrArg₂ (· * ·) ?_ (excite_transposed _ o c)
  unfold squeezed
  show max _ _ = _
  refine congrArg₂ max ?_ rfl
  refine (Cert.LibPlainProduct.matmul_zero_plain_apply (M := 16) (K := 256) (N := 128) _ _ none b o).trans ?_
  refine Finset.sum_congr rfl fun c' _ => ?_
  exact congrArg₂ (· * ·) (means_read z b c') (squeeze_transposed _ c' o)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Every block index of every window is zero at the one grid point. -/
theorem block_indices : ∀ t : Fin cfg1.N,
    (win1_0.index t (0 : Fin 3) = 0 ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 4) = 0 ∧ win1_3.index t (1 : Fin 4) = 0 ∧ win1_3.index t (2 : Fin 4) = 0
      ∧ win1_3.index t (3 : Fin 4) = 0) :=
  (by decide +kernel : ∀ t : Fin grid1.N, _)

/-- The loaded means are the whole array of means. -/
theorem means_whole (c : Dev nD) (t : Fin cfg1.N) :
    (iblk1 V c 0 t : Vec Ideal S16x1x256 .f32) = (V c main_v0 : S16x1x256.Idx → Elt Ideal .f32) := by
  obtain ⟨⟨e0, e1, e2⟩, -, -, -⟩ := block_indices t
  funext y
  unfold iblk1
  rw [View.read_apply]
  show V c main_v0 _ = V c main_v0 y
  congr 1
  funext a
  apply Fin.ext
  match a with
  | ⟨0, _⟩ => show win1_0.index t (0 : Fin 3) * 16 + 1 * (y 0).val = (y 0).val; rw [e0]; omega
  | ⟨1, _⟩ => show win1_0.index t (1 : Fin 3) * 1 + 1 * (y 1).val = (y 1).val; rw [e1]; omega
  | ⟨2, _⟩ => show win1_0.index t (2 : Fin 3) * 256 + 1 * (y 2).val = (y 2).val; rw [e2]; omega

/-- The loaded squeeze matrix is the whole matrix. -/
theorem squeeze_whole (c : Dev nD) (t : Fin cfg1.N) :
    (iblk1 V c 1 t : Vec Ideal S128x256 .f32) = (V c main_arg1 : S128x256.Idx → Elt Ideal .f32) := by
  obtain ⟨-, ⟨e0, e1⟩, -, -⟩ := block_indices t
  funext y
  unfold iblk1
  rw [View.read_apply]
  show V c main_arg1 _ = V c main_arg1 y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 256 + 1 * (y 1).val = (y 1).val; rw [e1]; omega

/-- The loaded excite matrix is the whole matrix. -/
theorem excite_whole (c : Dev nD) (t : Fin cfg1.N) :
    (iblk1 V c 2 t : Vec Ideal S256x128 .f32) = (V c main_arg2 : S256x128.Idx → Elt Ideal .f32) := by
  obtain ⟨-, -, ⟨e0, e1⟩, -⟩ := block_indices t
  funext y
  unfold iblk1
  rw [View.read_apply]
  show V c main_arg2 _ = V c main_arg2 y
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 128 + 1 * (y 1).val = (y 1).val; rw [e1]; omega

/-- What the one point writes back is the whole array of gates of the arrays the region finds. -/
theorem flushed_eq (c : Dev nD) (t : Fin cfg1.N) :
    (dat1 V c).flushed 3 t
      = ((cfg1.win 3).blk t).view.read (Elt Ideal) (gateArr (V c main_v0) (V c main_arg1) (V c main_arg2)) := by
  show (cfg1.win 3).cut (grid1.coords t) ((dat1 V c).after 3 t) = _
  rw [after1_3]
  unfold out1_3
  rw [View.canon_unit_zero zeros4]
  simp only [View.ld_unit_zero (S := S16x1x256) zeros3, View.ld_unit_zero (S := S128x256) zeros2,
    View.ld_unit_zero (S := S256x128) zeros2]
  obtain ⟨-, -, -, ⟨f0, f1, f2, f3⟩⟩ := block_indices t
  funext j
  obtain ⟨b, ch, p, q, rfl⟩ : ∃ (b : Fin 16) (ch : Fin 256) (p : Fin 1) (q : Fin 1), j = ix4 b ch p q :=
    ⟨j 0, j 1, j 2, j 3, eq_ix4 j⟩
  obtain rfl : p = 0 := Fin.eq_zero p
  obtain rfl : q = 0 := Fin.eq_zero q
  show k1_pay1 (F := Ideal) (iblk1 V c 0 t) (iblk1 V c 1 t) (iblk1 V c 2 t) (ix4 b ch 0 0)
    = gateArr (V c main_v0) (V c main_arg1) (V c main_arg2) (((cfg1.win 3).blk t).view.emb (ix4 b ch 0 0))
  refine (payload_apply _ _ _ b ch).trans ?_
  rw [means_whole V c t, squeeze_whole V c t, excite_whole V c t]
  unfold gateArr
  refine congrArg Ideal.logistic (congrArg₂ (logit (V c main_v0) (V c main_arg1) (V c main_arg2)) (Fin.ext ?_) (Fin.ext ?_))
  · show b.val = win1_3.index t (0 : Fin 4) * 16 + 1 * b.val
    rw [f0]; omega
  · show ch.val = win1_3.index t (1 : Fin 4) * 256 + 1 * ch.val
    rw [f1]; omega

/-- An index of the array of gates is in the point's block iff each coordinate is in the block's range. -/
theorem mem_blk (t : Fin cfg1.N) (i : S16x256x1x1.Idx) :
    i ∈ ((cfg1.win 3).blk t).view.set ↔ ∀ a : Fin 4, win1_3.index t a * S16x256x1x1.size a ≤ (i a).val
      ∧ (i a).val < win1_3.index t a * S16x256x1x1.size a + S16x256x1x1.size a := by
  show i ∈ ((View.whole main_v1).slice (win1_3.rect t)).set ↔ _
  rw [View.set_slice_whole, Rect.mem_set_unit]
  exact Iff.rfl

/-- The one block is the whole array. -/
theorem cover (i : S16x256x1x1.Idx) :
    ∃ t : Fin cfg1.N, (cfg1.win 3).flush t = true ∧ i ∈ ((cfg1.win 3).blk t).view.set := by
  have h0 : (i 0).val < 16 := (i 0).isLt
  have h1 : (i 1).val < 256 := (i 1).isLt
  have h2 : (i 2).val < 1 := (i 2).isLt
  have h3 : (i 3).val < 1 := (i 3).isLt
  have ht : 0 < cfg1.N := by show 0 < grid1.N; rw [N_1]; decide
  obtain ⟨-, -, -, ⟨f0, f1, f2, f3⟩⟩ := block_indices ⟨0, ht⟩
  refine ⟨⟨0, ht⟩, flush1_3 _, ?_⟩
  rw [mem_blk]
  intro a
  match a with
  | ⟨0, _⟩ =>
    show win1_3.index ⟨0, ht⟩ (0 : Fin 4) * 16 ≤ (i 0).val ∧ (i 0).val < win1_3.index ⟨0, ht⟩ (0 : Fin 4) * 16 + 16
    rw [f0]; omega
  | ⟨1, _⟩ =>
    show win1_3.index ⟨0, ht⟩ (1 : Fin 4) * 256 ≤ (i 1).val ∧ (i 1).val < win1_3.index ⟨0, ht⟩ (1 : Fin 4) * 256 + 256
    rw [f1]; omega
  | ⟨2, _⟩ =>
    show win1_3.index ⟨0, ht⟩ (2 : Fin 4) * 1 ≤ (i 2).val ∧ (i 2).val < win1_3.index ⟨0, ht⟩ (2 : Fin 4) * 1 + 1
    rw [f2]; omega
  | ⟨3, _⟩ =>
    show win1_3.index ⟨0, ht⟩ (3 : Fin 4) * 1 ≤ (i 3).val ∧ (i 3).val < win1_3.index ⟨0, ht⟩ (3 : Fin 4) * 1 + 1
    rw [f3]; omega

/-- The array of gates after the region: `gateArr` of the means and the two matrices as the region finds them. -/
theorem final (c : Dev nD) :
    (dat1 V c).arrAt 3 cfg1.N = gateArr (V c main_v0) (V c main_arg1) (V c main_arg2) :=
  (dat1 V c).arrAt_eq_of_cover 3 (gateArr (V c main_v0) (V c main_arg1) (V c main_arg2))
    (fun t _ => flushed_eq V c t) cover

end Cert.KernelIdeal.Gate

end
-- ==== Proof.Scale.lean ====
/-
  The third region: every position of a channel multiplied by the channel's gate.

  The grid is 16 × 2: point (b, s) reads the half slab `u[b, 128 s … 128 s + 127, ·, ·]` and the 128 gates of those
  channels, and writes the half slab of products. Here: the stored value at (0, c, h, w) is the loaded entry times the
  loaded gate at (0, c, 0, 0); the two loaded blocks sit at the same block index as the written one; so what a point
  writes back is its block of `scaleArr` of the input and the gates; the 32 blocks cover the result array, which
  therefore ends as `scaleArr` of the input and the gates.
-/
import proofs.«168647_j4123168604913_1_alg».proof.Proof.Gen.KernelIdeal.Frame
import proofs.«168647_j4123168604913_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Scale

open Cert.KernelIdeal Cert.KernelIdeal.Gen Cert.SqueezeExcite
open Idealize.ShloMosaic Idealize.ShloMosaic.TcCoe Idealize.ShloMosaic.ValueIdx Idealize.SL.Sem
open Idealize.ShloMosaic.Pipeline (Dat)

/-- The stored value at (0, c, h, w): the loaded entry times the loaded gate of channel `c`. -/
theorem payload_apply (x : Vec Ideal S1x128x128x128 .f32) (g : Vec Ideal S1x128x1x1 .f32) (c h w : Fin 128) :
    k2_pay1 (F := Ideal) x g (ix4 0 c h w) = x (ix4 0 c h w) * g (ix4 0 c 0 0) := by
  unfold k2_pay1
  rw [mulf_apply]
  refine congrArg (x (ix4 0 c h w) * ·) ?_
  rw [shapeCast_self]
  refine broadcastTo_apply g _ (ix4 0 c h w) (ix4 0 c 0 0) (fun a => ?_)
  match a with
  | ⟨0, _⟩ => show 0 = if (1 : Nat) = 1 then 0 else 0; rw [if_pos rfl]
  | ⟨1, _⟩ => show c.val = if (128 : Nat) = 1 then 0 else c.val; rw [if_neg (by decide)]
  | ⟨2, _⟩ => show 0 = if (1 : Nat) = 1 then 0 else h.val; rw [if_pos rfl]
  | ⟨3, _⟩ => show 0 = if (1 : Nat) = 1 then 0 else w.val; rw [if_pos rfl]

variable (V : (c : Dev nD) → (b : Ref sig .tc) → Buf (Elt Ideal) ((c : Thread nD τ).loc b))

theorem zeros4 : (![0, 0, 0, 0] : Fin 4 → Nat) = fun _ => 0 := funext fun a => by fin_cases a <;> rfl

/-- The block indices at point `t` = 2 b + s: all three windows sit at (b, s, 0, 0). -/
theorem block_indices : ∀ t : Fin cfg2.N,
    (win2_0.index t (0 : Fin 4) = t.val / 2 ∧ win2_0.index t (1 : Fin 4) = t.val % 2
      ∧ win2_0.index t (2 : Fin 4) = 0 ∧ win2_0.index t (3 : Fin 4) = 0)
    ∧ (win2_1.index t (0 : Fin 4) = t.val / 2 ∧ win2_1.index t (1 : Fin 4) = t.val % 2
      ∧ win2_1.index t (2 : Fin 4) = 0 ∧ win2_1.index t (3 : Fin 4) = 0)
    ∧ (win2_2.index t (0 : Fin 4) = t.val / 2 ∧ win2_2.index t (1 : Fin 4) = t.val % 2
      ∧ win2_2.index t (2 : Fin 4) = 0 ∧ win2_2.index t (3 : Fin 4) = 0) :=
  (by decide +kernel : ∀ t : Fin grid2.N, _)

/-- What point `t` writes back is its block of the input scaled by the gates, as the region finds them. -/
theorem flushed_eq (c : Dev nD) (t : Fin cfg2.N) :
    (dat2 V c).flushed 2 t
      = ((cfg2.win 2).blk t).view.read (Elt Ideal) (scaleArr (V c main_arg0) (V c main_v1)) := by
  show (cfg2.win 2).cut (grid2.coords t) ((dat2 V c).after 2 t) = _
  rw [after2_2]
  unfold out2_2
  rw [View.canon_unit_zero zeros4]
  simp only [View.ld_unit_zero (S := S1x128x128x128) zeros4, View.ld_unit_zero (S := S1x128x1x1) zeros4]
  obtain ⟨⟨a0, a1, a2, a3⟩, ⟨g0, g1, g2, g3⟩, ⟨o0, o1, o2, o3⟩⟩ := block_indices t
  funext j
  obtain ⟨p, ch, h, w, rfl⟩ : ∃ (p : Fin 1) (ch : Fin 128) (h : Fin 128) (w : Fin 128), j = ix4 p ch h w :=
    ⟨j 0, j 1, j 2, j 3, eq_ix4 j⟩
  obtain rfl : p = 0 := Fin.eq_zero p
  show k2_pay1 (F := Ideal) (iblk2 V c 0 t) (iblk2 V c 1 t) (ix4 0 ch h w)
    = scaleArr (V c main_arg0) (V c main_v1) (((cfg2.win 2).blk t).view.emb (ix4 0 ch h w))
  refine (payload_apply _ _ ch h w).trans ?_
  unfold scaleArr
  refine congrArg₂ (· * ·) ?_ ?_
  · unfold iblk2
    rw [View.read_apply]
    show V c main_arg0 _ = V c main_arg0 _
    refine congrArg (V c main_arg0) (funext fun a => Fin.ext ?_)
    match a with
    | ⟨0, _⟩ =>
      show win2_0.index t (0 : Fin 4) * 1 + 1 * 0 = win2_2.index t (0 : Fin 4) * 1 + 1 * 0
      rw [a0, o0]
    | ⟨1, _⟩ =>
      show win2_0.index t (1 : Fin 4) * 128 + 1 * ch.val = win2_2.index t (1 : Fin 4) * 128 + 1 * ch.val
      rw [a1, o1]
    | ⟨2, _⟩ =>
      show win2_0.index t (2 : Fin 4) * 128 + 1 * h.val = win2_2.index t (2 : Fin 4) * 128 + 1 * h.val
      rw [a2, o2]
    | ⟨3, _⟩ =>
      show win2_0.index t (3 : Fin 4) * 128 + 1 * w.val = win2_2.index t (3 : Fin 4) * 128 + 1 * w.val
      rw [a3, o3]
  · unfold iblk2
    rw [View.read_apply]
    show V c main_v1 _ = V c main_v1 _
    refine congrArg (V c main_v1) (funext fun a => Fin.ext ?_)
    match a with
    | ⟨0, _⟩ =>
      show win2_1.index t (0 : Fin 4) * 1 + 1 * 0 = win2_2.index t (0 : Fin 4) * 1 + 1 * 0
      rw [g0, o0]
    | ⟨1, _⟩ =>
      show win2_1.index t (1 : Fin 4) * 128 + 1 * ch.val = win2_2.index t (1 : Fin 4) * 128 + 1 * ch.val
      rw [g1, o1]
    | ⟨2, _⟩ =>
      show win2_1.index t (2 : Fin 4) * 1 + 1 * 0 = 0
      rw [g2]
    | ⟨3, _⟩ =>
      show win2_1.index t (3 : Fin 4) * 1 + 1 * 0 = 0
      rw [g3]

/-- An index of the result array is in point `t`'s block iff each coordinate is in the block's range. -/
theorem mem_blk (t : Fin cfg2.N) (i : S16x256x128x128.Idx) :
    i ∈ ((cfg2.win 2).blk t).view.set ↔ ∀ a : Fin 4, win2_2.index t a * S1x128x128x128.size a ≤ (i a).val
      ∧ (i a).val < win2_2.index t a * S1x128x128x128.size a + S1x128x128x128.size a := by
  show i ∈ ((View.whole main_v2).slice (win2_2.rect t)).set ↔ _
  rw [View.set_slice_whole, Rect.mem_set_unit]
  exact Iff.rfl

/-- Entry (b, c, h, w) is written back by point 2 b + c / 128. -/
theorem cover (i : S16x256x128x128.Idx) :
    ∃ t : Fin cfg2.N, (cfg2.win 2).flush t = true ∧ i ∈ ((cfg2.win 2).blk t).view.set := by
  have h0 : (i 0).val < 16 := (i 0).isLt
  have h1 : (i 1).val < 256 := (i 1).isLt
  have h2 : (i 2).val < 128 := (i 2).isLt
  have h3 : (i 3).val < 128 := (i 3).isLt
  have ht : (i 0).val * 2 + (i 1).val / 128 < cfg2.N := by
    show (i 0).val * 2 + (i 1).val / 128 < grid2.N; rw [N_2]; omega
  obtain ⟨-, -, ⟨o0, o1, o2, o3⟩⟩ := block_indices ⟨(i 0).val * 2 + (i 1).val / 128, ht⟩
  refine ⟨⟨(i 0).val * 2 + (i 1).val / 128, ht⟩, flush2_2 _, ?_⟩
  rw [mem_blk]
  intro a
  match a with
  | ⟨0, _⟩ =>
    show win2_2.index ⟨(i 0).val * 2 + (i 1).val / 128, ht⟩ (0 : Fin 4) * 1 ≤ (i 0).val
      ∧ (i 0).val < win2_2.index ⟨(i 0).val * 2 + (i 1).val / 128, ht⟩ (0 : Fin 4) * 1 + 1
    rw [o0]; show ((i 0).val * 2 + (i 1).val / 128) / 2 * 1 ≤ (i 0).val ∧ (i 0).val < ((i 0).val * 2 + (i 1).val / 128) / 2 * 1 + 1
    omega
  | ⟨1, _⟩ =>
    show win2_2.index ⟨(i 0).val * 2 + (i 1).val / 128, ht⟩ (1 : Fin 4) * 128 ≤ (i 1).val
      ∧ (i 1).val < win2_2.index ⟨(i 0).val * 2 + (i 1).val / 128, ht⟩ (1 : Fin 4) * 128 + 128
    rw [o1]; show ((i 0).val * 2 + (i 1).val / 128) % 2 * 128 ≤ (i 1).val ∧ (i 1).val < ((i 0).val * 2 + (i 1).val / 128) % 2 * 128 + 128
    omega
  | ⟨2, _⟩ =>
    show win2_2.index ⟨(i 0).val * 2 + (i 1).val / 128, ht⟩ (2 : Fin 4) * 128 ≤ (i 2).val
      ∧ (i 2).val < win2_2.index ⟨(i 0).val * 2 + (i 1).val / 128, ht⟩ (2 : Fin 4) * 128 + 128
    rw [o2]; omega
  | ⟨3, _⟩ =>
    show win2_2.index ⟨(i 0).val * 2 + (i 1).val / 128, ht⟩ (3 : Fin 4) * 128 ≤ (i 3).val
      ∧ (i 3).val < win2_2.index ⟨(i 0).val * 2 + (i 1).val / 128, ht⟩ (3 : Fin 4) * 128 + 128
    rw [o3]; omega

/-- The result array after the region: the input scaled by the gates, as the region finds them. -/
theorem final (c : Dev nD) : (dat2 V c).arrAt 2 cfg2.N = scaleArr (V c main_arg0) (V c main_v1) :=
  (dat2 V c).arrAt_eq_of_cover 2 (scaleArr (V c main_arg0) (V c main_v1)) (fun t _ => flushed_eq V c t) cover

end Cert.KernelIdeal.Scale

end
-- ==== Proof.KernelValue.lean ====
/-
  The three regions composed: the result array of the whole program.

  The contents of the buffers at each region's entry are what the region before left. The first region finds the
  input as launched and leaves `meanArr` of it; the second finds those means and the two matrices as launched (the
  first region wrote neither) and leaves `gateArr` of them; the third finds the input as launched (nothing wrote
  it) and those gates, and leaves `scaleArr` of them: `result` of the three arguments.
-/
import proofs.«168647_j4123168604913_1_alg».proof.Proof.KernelRun
import proofs.«168647_j4123168604913_1_alg».proof.Proof.Pool
import proofs.«168647_j4123168604913_1_alg».proof.Proof.Gate
import proofs.«168647_j4123168604913_1_alg».proof.Proof.Scale

noncomputable section

namespace Cert.KernelIdeal.Whole

open Cert.KernelIdeal Cert.KernelIdeal.Gen Cert.SqueezeExcite
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The means the second region finds are those of the launched input. -/
theorem means_at_entry (c : Dev nD) :
    V1 m ρ c main_v0 = meanArr (m ((c : Thread nD τ).loc main_arg0)) :=
  (W1_arr m ρ c 1).trans (Pool.final (V0 m ρ) c)

/-- The second region finds the squeeze matrix as launched. -/
theorem squeeze_at_entry (c : Dev nD) : V1 m ρ c main_arg1 = m ((c : Thread nD τ).loc main_arg1) :=
  W1_of_ne m ρ c main_arg1 (by decide)

/-- The second region finds the excite matrix as launched. -/
theorem excite_at_entry (c : Dev nD) : V1 m ρ c main_arg2 = m ((c : Thread nD τ).loc main_arg2) :=
  W1_of_ne m ρ c main_arg2 (by decide)

/-- The gates the third region finds are those of the launched arguments. -/
theorem gates_at_entry (c : Dev nD) :
    V2 m ρ c main_v1 = gateArr (meanArr (m ((c : Thread nD τ).loc main_arg0)))
      (m ((c : Thread nD τ).loc main_arg1)) (m ((c : Thread nD τ).loc main_arg2)) := by
  refine ((W2_arr m ρ c 3).trans (Gate.final (V1 m ρ) c)).trans ?_
  rw [means_at_entry m ρ c, squeeze_at_entry m ρ c, excite_at_entry m ρ c]

/-- The third region finds the input as launched. -/
theorem input_at_entry (c : Dev nD) : V2 m ρ c main_arg0 = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) :=
      (W1_arr m ρ c 0).trans (((dat0 (V0 m ρ) c).arrAt_in 0 rfl _).trans (A_eq0 (V0 m ρ) c 0))
    _ = m ((c : Thread nD τ).loc main_arg0) := rfl

/-- The result array after the last region is `result` of the launched arguments. -/
theorem result_array (c : Dev nD) :
    W3 m ρ c (Proc.devRef .tc main_v2) = result (m ((c : Thread nD τ).loc main_arg0))
      (m ((c : Thread nD τ).loc main_arg1)) (m ((c : Thread nD τ).loc main_arg2)) := by
  refine ((W3_arr m ρ c 2).trans (Scale.final (V2 m ρ) c)).trans ?_
  rw [gates_at_entry m ρ c, input_at_entry m ρ c]
  rfl

/-- The run of the program on the extended reals: it terminates, nothing faulting, with the result array at
    `result` of the launched arguments and the arguments unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_array m ρ c), (h c).2⟩)
    (Cert.KernelIdeal.RunNamed.run m ρ)

end Cert.KernelIdeal.Whole

end
-- ==== Proof.Reference.lean ====
/-
  The reference computes `result`.

  Stage by stage: its mean is zero plus the sum over both trailing axes at once, divided by 2¹⁴, which is `mean`
  (the sum regrouped as rows then row sums, the quotient as the product with 2⁻¹⁴); its two matrix products contract
  the second axis of both operands, which are the sums in `squeezed` and `logit` term for term; its gate is spelt
  `1 / (1 + e^(−x))`, which is the logistic function on every extended real; and the two broadcasts read the gate
  of an entry's batch member and channel.
-/
import proofs.«168647_j4123168604913_1_alg».proof.Proof.Gen.ReferenceIdeal.Read
import proofs.«168647_j4123168604913_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Cert.SqueezeExcite
open Idealize.ShloMosaic Idealize.ShloMosaic.ValueIdx

/-- The reference's mean at (b, c). -/
theorem mean_stage (x0 : (⟨S16x256x128x128, .f32⟩ : BufTy).Contents (Elt Ideal)) (i : S16x256.Idx) :
    val_main_v2 (F := Ideal) x0 i = mean x0 ⟨(i 0).val, (i 0).isLt⟩ ⟨(i 1).val, (i 1).isLt⟩ := by
  rw [val_main_v2_apply, val_main_v1_apply, val_main_cst_0_apply]
  show Ideal.div (Ideal.hostReduceAdd reducesTo_S16x256x128x128_S16x256_d2_3 x0 (Ideal.ofBits .f32 0x00000000#32) i)
    (Ideal.ofBits .f32 0x46800000#32) = _
  exact mean_of_quotient _ x0 i

/-- The reference's clamped first product at (b, o). -/
theorem squeezed_stage (x0 : (⟨S16x256x128x128, .f32⟩ : BufTy).Contents (Elt Ideal))
    (x1 : (⟨S128x256, .f32⟩ : BufTy).Contents (Elt Ideal)) (i : S16x128.Idx) :
    val_main_v4 (F := Ideal) x0 x1 i = squeezed (meanArr x0) x1 ⟨(i 0).val, (i 0).isLt⟩ ⟨(i 1).val, (i 1).isLt⟩ := by
  rw [val_main_v4_apply, val_main_v3_apply, val_main_call0_v0_apply, val_main_call0_cst_apply]
  unfold squeezed
  show max _ _ = max _ _
  refine congrArg₂ max (Finset.sum_congr rfl fun k _ => ?_) rfl
  rw [mean_stage]
  refine congrArg₂ (· * ·) rfl (congrArg x1 (funext fun a => ?_))
  match a with
  | ⟨0, _⟩ => rfl
  | ⟨1, _⟩ => rfl

/-- The reference's second product at (b, c). -/
theorem logit_stage (x0 : (⟨S16x256x128x128, .f32⟩ : BufTy).Contents (Elt Ideal))
    (x1 : (⟨S128x256, .f32⟩ : BufTy).Contents (Elt Ideal)) (x2 : (⟨S256x128, .f32⟩ : BufTy).Contents (Elt Ideal))
    (i : S16x256.Idx) :
    val_main_v5 (F := Ideal) x0 x1 x2 i = logit (meanArr x0) x1 x2 ⟨(i 0).val, (i 0).isLt⟩ ⟨(i 1).val, (i 1).isLt⟩ := by
  rw [val_main_v5_apply]
  unfold logit
  refine Finset.sum_congr rfl fun k _ => ?_
  rw [squeezed_stage]
  refine congrArg₂ (· * ·) rfl (congrArg x2 (funext fun a => ?_))
  match a with
  | ⟨0, _⟩ => rfl
  | ⟨1, _⟩ => rfl

/-- The reference's gate at (b, c): one over one plus the exponential of the negated logit is the logistic function. -/
theorem gate_stage (x0 : (⟨S16x256x128x128, .f32⟩ : BufTy).Contents (Elt Ideal))
    (x1 : (⟨S128x256, .f32⟩ : BufTy).Contents (Elt Ideal)) (x2 : (⟨S256x128, .f32⟩ : BufTy).Contents (Elt Ideal))
    (i : S16x256.Idx) :
    val_main_v11 (F := Ideal) x0 x1 x2 i
      = Ideal.logistic (logit (meanArr x0) x1 x2 ⟨(i 0).val, (i 0).isLt⟩ ⟨(i 1).val, (i 1).isLt⟩) := by
  rw [val_main_v11_apply, val_main_v10_apply, val_main_cst_2_apply, val_main_v9_apply, val_main_v8_apply,
    val_main_cst_1_apply, val_main_v7_apply, val_main_v6_apply, logit_stage]
  show Ideal.div (Ideal.ofBits .f32 0x3F800000#32) (Ideal.ofBits .f32 0x3F800000#32 + Ideal.exp (-_)) = _
  rw [Ideal.ofBits_one_f32]
  rfl

/-- The reference's result array is `result` of its three arguments. -/
theorem result_eq (x0 : (⟨S16x256x128x128, .f32⟩ : BufTy).Contents (Elt Ideal))
    (x1 : (⟨S128x256, .f32⟩ : BufTy).Contents (Elt Ideal)) (x2 : (⟨S256x128, .f32⟩ : BufTy).Contents (Elt Ideal)) :
    val_main_v14 (F := Ideal) x0 x1 x2 = result x0 x1 x2 := by
  funext i
  rw [val_main_v14_apply, val_main_v13_apply, val_main_v12_apply, gate_stage]
  rfl

end Cert.ReferenceIdeal.RefValue

end
-- ==== Proof.lean ====
/-
  Squeeze-and-excite gating: a three-stage kernel against its array-language reference, over the extended reals.

  Both programs compute, for an input `u` (16 × 256 × 128 × 128) and two matrices,
  `u[b, c, h, w] · σ(Σ_o max(Σ_c' mean(b, c') · wsq[o, c'], 0) · wex[c, o])` with `mean(b, c')` the mean of
  `u[b, c', ·, ·]` and `σ` the logistic function (Proof/Spec.lean's `result`). The kernel does it in three regions —
  the means, the gates, the products — whose values are read off region by region (Proof/Pool.lean, Proof/Gate.lean,
  Proof/Scale.lean) and composed along the run (Proof/KernelValue.lean); the reference's stages are read in
  Proof/Reference.lean. The two differ in how the mean is spelt (rows then row sums times 2⁻¹⁴, against one sum over
  both axes divided by 2¹⁴), in the matrix products (against an explicitly transposed matrix, or contracting the
  second axes), and in the gate (the logistic function, or one over one plus an exponential): equal on every extended
  real, so the inputs' finiteness is not used. The idealization rewrote nothing, so it preserves the kernel trivially.
-/
import proofs.«168647_j4123168604913_1_alg».proof.Defs
import proofs.«168647_j4123168604913_1_alg».proof.Proof.Gen.Kernel
import proofs.«168647_j4123168604913_1_alg».proof.Proof.Gen.Kernel.Frame
import proofs.«168647_j4123168604913_1_alg».proof.Proof.Gen.KernelIdeal
import proofs.«168647_j4123168604913_1_alg».proof.Proof.Gen.KernelIdeal.Frame
import proofs.«168647_j4123168604913_1_alg».proof.Proof.Gen.ReferenceIdeal
import proofs.«168647_j4123168604913_1_alg».proof.Proof.Gen.Pre_finite_inputs
import proofs.«168647_j4123168604913_1_alg».proof.Proof.Gen.ReferenceIdeal.Run
import proofs.«168647_j4123168604913_1_alg».proof.Proof.Gen.ReferenceIdeal.Read
import proofs.«168647_j4123168604913_1_alg».proof.Proof.KernelValue
import proofs.«168647_j4123168604913_1_alg».proof.Proof.Reference
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with `result` of them. -/
theorem algebraic : Cert.algebraic_KernelIdeal_ReferenceIdeal := by
  intro m ρ m' ρ' _ hagree
  refine ⟨fun c => Cert.SqueezeExcite.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
